-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x512 : Shape := ⟨3, ![64, 4096, 512]⟩
abbrev S64x256x512 : Shape := ⟨3, ![64, 256, 512]⟩
abbrev S_ : Shape := ⟨0, ![]⟩

class Facts : Prop where
  bcast_S_S64x4096x512 : S_.BroadcastsInDim S64x4096x512 (![] : Fin 0 → Fin S64x4096x512.rank)
  reducesTo_S64x4096x512_S_d0_1_2 : S64x4096x512.ReducesTo [0, 1, 2] S_
  h_S_ : 0 < S_.numel
  bcast_S_S64x256x512 : S_.BroadcastsInDim S64x256x512 (![] : Fin 0 → Fin S64x256x512.rank)
  reducesTo_S64x256x512_S_d0_1_2 : S64x256x512.ReducesTo [0, 1, 2] S_

variable [Facts]

def fn {F : FTy → Type} [FloatOps F] (main_arg0 : FVec F S64x4096x512 .f32) (main_arg1 : FVec F S64x256x512 .f32) : IVec S_ 1 :=
  let main_v0 : FVec F S64x4096x512 .f32 := Host.absf main_arg0
  let main_cst : FVec F S_ .f32 := constant S_ .f32 0x7F800000#32
  let main_v1 : FVec F S64x4096x512 .f32 := broadcastInDim S64x4096x512 ![] bcast_S_S64x4096x512 main_cst
  let main_v2 : IVec S64x4096x512 1 := cmpf .olt main_v0 main_v1
  let main_c : IVec S_ 1 := constantI S_ 1 1#1
  let main_v3 : IVec S_ 1 := (fun x v => Host.reduce IntOp.andi x v reducesTo_S64x4096x512_S_d0_1_2 h_S_) main_v2 main_c
  let main_v4 : FVec F S64x256x512 .f32 := Host.absf main_arg1
  let main_cst_0 : FVec F S_ .f32 := constant S_ .f32 0x7F800000#32
  let main_v5 : FVec F S64x256x512 .f32 := broadcastInDim S64x256x512 ![] bcast_S_S64x256x512 main_cst_0
  let main_v6 : IVec S64x256x512 1 := cmpf .olt main_v4 main_v5
  let main_c_1 : IVec S_ 1 := constantI S_ 1 1#1
  let main_v7 : IVec S_ 1 := (fun x v => Host.reduce IntOp.andi x v reducesTo_S64x256x512_S_d0_1_2 h_S_) main_v6 main_c_1
  let main_v8 : IVec S_ 1 := andi main_v3 main_v7
  main_v8
-- ==== Kernel.lean ====
abbrev S64x4096x512 : Shape := ⟨3, ![64, 4096, 512]⟩
abbrev S64x256x512 : Shape := ⟨3, ![64, 256, 512]⟩
abbrev S64x1 : Shape := ⟨2, ![64, 1]⟩
abbrev S8x512x512 : Shape := ⟨3, ![8, 512, 512]⟩
abbrev S8x256x512 : Shape := ⟨3, ![8, 256, 512]⟩
abbrev S8x1 : Shape := ⟨2, ![8, 1]⟩
abbrev S8x256 : Shape := ⟨2, ![8, 256]⟩
abbrev S8x512x256 : Shape := ⟨3, ![8, 512, 256]⟩
abbrev S8x512 : Shape := ⟨2, ![8, 512]⟩
abbrev S8 : Shape := ⟨1, ![8]⟩
abbrev S64 : Shape := ⟨1, ![64]⟩

abbrev nBuf : Space → Nat
  | .hbm => 4
  | .vmem => 8
  | .smem => 0
  | _ => 0

abbrev bufTy : (tb : Table) → Fin (tcTables nBuf tb) → BufTy
  | .hbm, ⟨0, _⟩ => ⟨S64x4096x512, .f32⟩
  | .hbm, ⟨1, _⟩ => ⟨S64x256x512, .f32⟩
  | .hbm, ⟨2, _⟩ => ⟨S64x1, .f32⟩
  | .hbm, ⟨3, _⟩ => ⟨S64, .f32⟩
  | .local _ .vmem, ⟨0, _⟩ => ⟨S8x512x512, .f32⟩
  | .local _ .vmem, ⟨1, _⟩ => ⟨S8x512x512, .f32⟩
  | .local _ .vmem, ⟨2, _⟩ => ⟨S8x256x512, .f32⟩
  | .local _ .vmem, ⟨3, _⟩ => ⟨S8x256x512, .f32⟩
  | .local _ .vmem, ⟨4, _⟩ => ⟨S8x1, .f32⟩
  | .local _ .vmem, ⟨5, _⟩ => ⟨S8x1, .f32⟩
  | .local _ .vmem, ⟨6, _⟩ => ⟨S8x256, .f32⟩
  | .local _ .vmem, ⟨7, _⟩ => ⟨S8x1, .f32⟩
  | _, _ => ⟨S64x4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v22 : BitVec 1 := Scalar.cmpi .eq arg1 c7_i32
  let v23 : BitVec 32 := Scalar.extui v22
  let c0_i32_17 : BitVec 32 := 0#32
  let v24 : BitVec 1 := Scalar.cmpi .ne v23 c0_i32_17
  v24

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x512x512_S8x512x512_0_0_0 : ∀ a, (![0, 0, 0] : Fin 3 → Nat) a + S8x512x512.size a ≤ S8x512x512.size a
  h_S8x512x512 : 0 < S8x512x512.numel
  bitsLt_bf16_f32 : FTy.bits .bf16 < FTy.bits .f32
  inb_S8x256x512_S8x256x512_0_0_0 : ∀ a, (![0, 0, 0] : Fin 3 → Nat) a + S8x256x512.size a ≤ S8x256x512.size a
  h_S8x256x512 : 0 < S8x256x512.numel
  reduces_S8x512x256_S8x512 : S8x512x256.Reduces [2] S8x512
  reduces_S8x512_S8 : S8x512.Reduces [1] S8
  shapeCasts_S8_S8x1 : S8.ShapeCasts S8x1
  reduces_S8x512x256_S8x256 : S8x512x256.Reduces [1] S8x256
  reduces_S8x256_S8 : S8x256.Reduces [1] S8
  shapeCasts_S64x1_S64 : S64x1.ShapeCasts S64
  dot_S8x512x512_S8x256x512_S8x512x256_2_2_1_1_0_0_wf : DotDims.WF S8x512x512 S8x256x512 S8x512x256 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x512.size a ≤ S64x4096x512.size a
  hwx0_0 : ∀ i : grid0.Coords, EltTy.bits .f32 = 32 ∨ (Rect.block (s := S64x4096x512) S8x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x512.size a ≤ S64x256x512.size a
  hwx0_1 : ∀ i : grid0.Coords, EltTy.bits .f32 = 32 ∨ (Rect.block (s := S64x256x512) S8x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1.size a ≤ S64x1.size a
  hwx0_2 : ∀ i : grid0.Coords, EltTy.bits .f32 = 32 ∨ (Rect.block (s := S64x1) S8x1.size (cc0_transform_2 i) (hinb0_2 i)).WholeWords (EltTy.packing .f32)

variable [Facts₀]

def dot_S8x512x512_S8x256x512_S8x512x256_2_2_1_1_0_0 : DotDims S8x512x512 S8x256x512 S8x512x256 where
  lhsContracting := [2]
  rhsContracting := [2]
  lhsNonContracting := [1]
  rhsNonContracting := [1]
  lhsBatch := [0]
  rhsBatch := [0]
  wf := dot_S8x512x512_S8x256x512_S8x512x256_2_2_1_1_0_0_wf

abbrev win0_0 : Pipeline.Window sig grid0 :=
  Pipeline.Window.ofSpec (Memref.whole main_arg0) S8x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S64x4096x512 : Shape := ⟨3, ![64, 4096, 512]⟩
abbrev S64x256x512 : Shape := ⟨3, ![64, 256, 512]⟩
abbrev S64x4096x256 : Shape := ⟨3, ![64, 4096, 256]⟩
abbrev S_ : Shape := ⟨0, ![]⟩
abbrev S64x4096 : Shape := ⟨2, ![64, 4096]⟩
abbrev S64 : Shape := ⟨1, ![64]⟩
abbrev S64x256 : Shape := ⟨2, ![64, 256]⟩

abbrev nBuf : Space → Nat
  | .hbm => 21
  | .vmem => 0
  | .smem => 0
  | _ => 0

abbrev bufTy : (tb : Table) → Fin (tcTables nBuf tb) → BufTy
  | .hbm, ⟨0, _⟩ => ⟨S64x4096x512, .f32⟩
  | .hbm, ⟨1, _⟩ => ⟨S64x256x512, .f32⟩
  | .hbm, ⟨2, _⟩ => ⟨S64x4096x256, .f32⟩
  | .hbm, ⟨3, _⟩ => ⟨S_, .f32⟩
  | .hbm, ⟨4, _⟩ => ⟨S64x4096, .f32⟩
  | .hbm, ⟨5, _⟩ => ⟨S_, .f32⟩
  | .hbm, ⟨6, _⟩ => ⟨S64, .f32⟩
  | .hbm, ⟨7, _⟩ => ⟨S_, .f32⟩
  | .hbm, ⟨8, _⟩ => ⟨S64, .f32⟩
  | .hbm, ⟨9, _⟩ => ⟨S64, .f32⟩
  | .hbm, ⟨10, _⟩ => ⟨S_, .f32⟩
  | .hbm, ⟨11, _⟩ => ⟨S64x256, .f32⟩
  | .hbm, ⟨12, _⟩ => ⟨S_, .f32⟩
  | .hbm, ⟨13, _⟩ => ⟨S64, .f32⟩
  | .hbm, ⟨14, _⟩ => ⟨S_, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S64, .f32⟩
  | .hbm, ⟨20, _⟩ => ⟨S64, .f32⟩
  | _, _ => ⟨S64x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_cst_2 : Ref sig .tc := ⟨.hbm, 10, rfl⟩
abbrev main_v5 : Ref sig .tc := ⟨.hbm, 11, rfl⟩
abbrev main_cst_3 : Ref sig .tc := ⟨.hbm, 12, rfl⟩
abbrev main_v6 : Ref sig .tc := ⟨.hbm, 13, rfl⟩
abbrev main_cst_4 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_5 : Ref sig .tc := ⟨.hbm, 18, rfl⟩
abbrev main_v10 : Ref sig .tc := ⟨.hbm, 19, rfl⟩
abbrev main_v11 : Ref sig .tc := ⟨.hbm, 20, rfl⟩

abbrev nD : Nat := 1
abbrev τ : Topo := Topo.v7x

variable {F : FTy → Type} [FloatOps F]

class Facts₀ : Prop where
  reducesTo_S64x4096x256_S64x4096_d2 : S64x4096x256.ReducesTo [2] S64x4096
  h_S_ : 0 < S_.numel
  reducesTo_S64x4096_S64_d1 : S64x4096.ReducesTo [1] S64
  bcast_S_S64 : S_.BroadcastsInDim S64 (![] : Fin 0 → Fin S64.rank)
  reducesTo_S64x4096x256_S64x256_d1 : S64x4096x256.ReducesTo [1] S64x256
  reducesTo_S64x256_S64_d1 : S64x256.ReducesTo [1] S64
  dot_S64x4096x512_S64x256x512_S64x4096x256_2_2_1_1_0_0_wf : DotDims.WF S64x4096x512 S64x256x512 S64x4096x256 [2] [2] [1] [1] [0] [0]

variable [Facts₀]

def dot_S64x4096x512_S64x256x512_S64x4096x256_2_2_1_1_0_0 : DotDims S64x4096x512 S64x256x512 S64x4096x256 where
  lhsContracting := [2]
  rhsContracting := [2]
  lhsNonContracting := [1]
  rhsNonContracting := [1]
  lhsBatch := [0]
  rhsBatch := [0]
  wf := dot_S64x4096x512_S64x256x512_S64x4096x256_2_2_1_1_0_0_wf

class Facts : Prop extends Facts₀ where

variable [Facts]
-- ==== Proof.SimSpec.lean ====
/-
  The mathematics both programs compute, over plain arrays of extended reals.

  For a batch element n, patch p and word w the SIMILARITY is the inner product of the patch's and the word's feature
  rows, sim n p w = ∑ d, a (n, p, d) · b (n, w, d). A patch's best word is the maximum of its similarities over the
  256 words, a word's best patch the maximum over the 4096 patches, both taken from −∞. The SCORE of n is half the
  sum of two means: the patches' best-word values averaged over the 4096 patches, and the words' best-patch values
  averaged over the 256 words.

  The 4096 patches may also be walked in 8 TILES of 512. The sum over all patches is then the tiles' partial sums
  added first to last from 0, the maximum over all patches the tiles' partial maxima folded first to last from −∞;
  and dividing by 4096 is multiplying by 2⁻¹², on every extended real. So the tile-wise form of the score equals the
  whole form: tiled_score.
-/
import Idealize.ShloMosaic.PureOps.Ideal
import Idealize.ShloMosaic.PureOps.Ideal.Laws
import Idealize.ShloMosaic.Lib.ValueIdx

noncomputable section

namespace Cert.PatchWord

open Idealize.ShloMosaic Idealize.ShloMosaic.ValueIdx

abbrev PatchArr : Shape := ⟨3, ![64, 4096, 512]⟩
abbrev WordArr : Shape := ⟨3, ![64, 256, 512]⟩
abbrev ScoreArr : Shape := ⟨1, ![64]⟩

/-! ## The five float words the programs spell -/

/-- The pattern of −∞ denotes the least extended real. -/
theorem negInf_eq : Ideal.ofBits .f32 0xFF800000#32 = ⊥ := by
  simp [Ideal.ofBits, Ideal.ieee]

/-- The pattern of 4096.0 denotes the real 4096. -/
theorem w4096_eq : Ideal.ofBits .f32 0x45800000#32 = ((4096 : ℝ) : EReal) := by
  simp [Ideal.ofBits, Ideal.ieee, -EReal.coe_mul]; norm_num

/-- The pattern of 2⁻¹² denotes the real 1/4096: the exponent field is 115 = 127 − 12 and the fraction field is zero. -/
theorem wInv4096_eq : Ideal.ofBits .f32 0x39800000#32 = ((1 / 4096 : ℝ) : EReal) := by
  simp [Ideal.ofBits, Ideal.ieee, -EReal.coe_mul]; norm_num

/-- Dividing by 4096 is multiplying by 2⁻¹², at the infinities too. -/
theorem div_4096 (x : EReal) :
    Ideal.div x (Ideal.ofBits .f32 0x45800000#32) = x * Ideal.ofBits .f32 0x39800000#32 := by
  rw [w4096_eq, wInv4096_eq, Ideal.div_coe (by norm_num)]

/-- From −∞ a maximum keeps the other side. -/
theorem max_negInf (x : EReal) : max (Ideal.ofBits .f32 0xFF800000#32) x = x := by
  rw [negInf_eq]; exact max_bot_left x

/-! ## Similarities, best matches, the score -/

variable (a : PatchArr.Idx → EReal) (b : WordArr.Idx → EReal)

/-- The similarity of patch p and word w of batch element n. -/
def sim (n : Fin 64) (p : Fin 4096) (w : Fin 256) : EReal :=
  ∑ d : Fin 512, a (ix3 n p d) * b (ix3 n w d)

/-- A patch's best similarity over the words, from −∞. -/
def bestWord (n : Fin 64) (p : Fin 4096) : EReal :=
  (Finset.univ : Finset (Fin 256)).fold max (Ideal.ofBits .f32 0xFF800000#32) (fun w => sim a b n p w)

/-- A word's best similarity over the patches, from −∞. -/
def bestPatch (n : Fin 64) (w : Fin 256) : EReal :=
  (Finset.univ : Finset (Fin 4096)).fold max (Ideal.ofBits .f32 0xFF800000#32) (fun p => sim a b n p w)

/-- The score: half the sum of the two means. -/
def score (n : Fin 64) : EReal :=
  Ideal.ofBits .f32 0x3F000000#32
    * (Ideal.div (Ideal.ofBits .f32 0x00000000#32 + ∑ p : Fin 4096, bestWord a b n p) (Ideal.ofBits .f32 0x45800000#32)
      + Ideal.div (Ideal.ofBits .f32 0x00000000#32 + ∑ w : Fin 256, bestPatch a b n w) (Ideal.ofBits .f32 0x43800000#32))

/-! ## The patches in 8 tiles of 512 -/

/-- Batch element r of group g (8 to a group); the group is a natural number, as a grid position gives it. -/
def rowOf (g : ℕ) (r : Fin 8) : Fin 64 := ⟨(8 * g + r.val) % 64, Nat.mod_lt _ (by norm_num)⟩

/-- Patch q of tile k (512 to a tile). -/
def posOf (k : ℕ) (q : Fin 512) : Fin 4096 := ⟨(512 * k + q.val) % 4096, Nat.mod_lt _ (by norm_num)⟩

/-- One tile's share of the sum of best-word values. -/
def tileSum (n : Fin 64) (k : ℕ) : EReal := ∑ q : Fin 512, bestWord a b n (posOf k q)

/-- One tile's maximum of a word's similarities, from −∞. -/
def tileMax (n : Fin 64) (w : Fin 256) (k : ℕ) : EReal :=
  (Finset.univ : Finset (Fin 512)).fold max (Ideal.ofBits .f32 0xFF800000#32) (fun q => sim a b n (posOf k q) w)

/-- The running sum after tile k, from the zero word, first tile first. -/
def runSum (f : ℕ → EReal) : ℕ → EReal
  | 0 => Ideal.ofBits .f32 0x00000000#32 + f 0
  | k + 1 => runSum f k + f (k + 1)

/-- The running maximum after tile k, from −∞, first tile first. -/
def runMax (f : ℕ → EReal) : ℕ → EReal
  | 0 => max (Ideal.ofBits .f32 0xFF800000#32) (f 0)
  | k + 1 => max (runMax f k) (f (k + 1))

theorem runSum_eq (f : ℕ → EReal) (k : ℕ) : runSum f k = ∑ j ∈ Finset.range (k + 1), f j := by
  induction k with
  | zero => simp [runSum]
  | succ k ih => rw [runSum, ih, Finset.sum_range_succ _ (k + 1)]

theorem runMax_eq (f : ℕ → EReal) (k : ℕ) : runMax f k = (Finset.range (k + 1)).sup f := by
  induction k with
  | zero => rw [runMax, max_negInf]; simp
  | succ k ih => rw [runMax, ih, Finset.range_add_one (n := k + 1), Finset.sup_insert, max_comm]

/-- A maximum folded from −∞ is the supremum. -/
theorem fold_max_eq_sup {ι : Type} (s : Finset ι) (g : ι → EReal) :
    s.fold max (Ideal.ofBits .f32 0xFF800000#32) g = s.sup g := by
  rw [negInf_eq]; rfl

/-- Every patch is patch p % 512 of tile p / 512. -/
theorem posOf_div_mod (p : Fin 4096) : posOf (p.val / 512) ⟨p.val % 512, Nat.mod_lt _ (by norm_num)⟩ = p := by
  apply Fin.ext
  show (512 * (p.val / 512) + p.val % 512) % 4096 = p.val
  have := p.isLt
  omega

/-- The 8 tiles' maxima, folded, are the maximum over all patches. -/
theorem runMax_tiles (g : Fin 4096 → EReal) :
    runMax (fun k => (Finset.univ : Finset (Fin 512)).fold max (Ideal.ofBits .f32 0xFF800000#32) (fun q => g (posOf k q))) 7
      = (Finset.univ : Finset (Fin 4096)).fold max (Ideal.ofBits .f32 0xFF800000#32) g := by
  rw [runMax_eq, fold_max_eq_sup]
  simp only [fold_max_eq_sup]
  apply le_antisymm
  · exact Finset.sup_le fun k _ => Finset.sup_le fun q _ => Finset.le_sup (f := g) (Finset.mem_univ _)
  · refine Finset.sup_le fun p _ => ?_
    have hk : p.val / 512 ∈ Finset.range (7 + 1) := Finset.mem_range.2 (by have := p.isLt; omega)
    refine le_trans ?_ (Finset.le_sup (f := fun k => (Finset.univ : Finset (Fin 512)).sup fun q => g (posOf k q)) hk)
    refine le_trans (le_of_eq ?_) (Finset.le_sup (f := fun q => g (posOf (p.val / 512) q))
      (Finset.mem_univ (⟨p.val % 512, Nat.mod_lt _ (by norm_num)⟩ : Fin 512)))
    exact (congrArg g (posOf_div_mod p)).symm

/-- The 8 tiles' sums, added from 0, are 0 plus the sum over all patches. -/
theorem runSum_tiles (g : Fin 4096 → EReal) :
    runSum (fun k => ∑ q : Fin 512, g (posOf k q)) 7 = Ideal.ofBits .f32 0x00000000#32 + ∑ p : Fin 4096, g p := by
  rw [runSum_eq, Ideal.ofBits_zero_f32, zero_add]
  rw [Finset.sum_range (fun k => ∑ q : Fin 512, g (posOf k q))]
  rw [← Fintype.sum_prod_type' (f := fun (k : Fin (7 + 1)) (q : Fin 512) => g (posOf k.val q))]
  refine Fintype.sum_equiv (finProdFinEquiv (m := 8) (n := 512)) _ _ fun x => congrArg g (Fin.ext ?_)
  show (512 * x.1.val + x.2.val) % 4096 = x.2.val + 512 * x.1.val
  have h1 := x.1.isLt
  have h2 := x.2.isLt
  omega

/-- THE TILED FORM IS THE SCORE. Best-word values summed tile by tile and scaled by 2⁻¹², best-patch values folded tile
    by tile, summed over the words and divided by 256, the two added and halved: the score. -/
theorem tiled_score (n : Fin 64) :
    Ideal.ofBits .f32 0x3F000000#32
      * (runSum (tileSum a b n) 7 * Ideal.ofBits .f32 0x39800000#32
        + Ideal.div (∑ w : Fin 256, runMax (tileMax a b n w) 7) (Ideal.ofBits .f32 0x43800000#32))
    = score a b n := by
  unfold score
  rw [div_4096]
  have hs : runSum (tileSum a b n) 7 = Ideal.ofBits .f32 0x00000000#32 + ∑ p : Fin 4096, bestWord a b n p :=
    runSum_tiles (fun p => bestWord a b n p)
  have hm : ∀ w : Fin 256, runMax (tileMax a b n w) 7 = bestPatch a b n w := fun w =>
    runMax_tiles (fun p => sim a b n p w)
  rw [hs, Finset.sum_congr rfl fun w _ => hm w, Ideal.ofBits_zero_f32, zero_add, zero_add]

end Cert.PatchWord

end
-- ==== Proof.RefScore.lean ====
/-
  The reference computes the score.

  Its stages, in order: the similarities of every (patch, word) pair as one batched product; each patch's maximum over the
  words and each word's maximum over the patches, both from −∞; the patches' maxima summed from 0 and divided by 4096,
  the words' maxima summed from 0 and divided by 256; the two quotients added and halved. Read at batch element n this is
  the score of n word for word: the only work is naming the index each stage reads its operand at.
-/
import proofs.«155672_j57724360458465_1_alg».proof.Proof.Gen.ReferenceIdeal.Read
import proofs.«155672_j57724360458465_1_alg».proof.Proof.SimSpec

noncomputable section

namespace Cert.ReferenceIdeal.RefScore

open Cert.ReferenceIdeal Cert.ReferenceIdeal.Gen Cert.ReferenceIdeal.Read Cert.PatchWord
open Idealize.ShloMosaic Idealize.ShloMosaic.ValueIdx

/-- Dropping the word axis of a (batch, patch, word) index; -/
theorem red_words : S64x4096x256.Reduces [2] S64x4096 := by decide
/-- dropping its patch axis; -/
theorem red_patches : S64x4096x256.Reduces [1] S64x256 := by decide

/-- putting word w back into (n, p) gives (n, p, w); -/
theorem lift_word (n : Fin 64) (p : Fin 4096) (w : Fin (S64x4096x256.size 2)) :
    red_words.lift (ix2 n p) w = ix3 n p (⟨w.val, w.isLt⟩ : Fin 256) := by
  funext c; apply Fin.ext
  fin_cases c <;> rfl

/-- putting patch p back into (n, w) gives (n, p, w). -/
theorem lift_patch (n : Fin 64) (w : Fin 256) (p : Fin (S64x4096x256.size 1)) :
    red_patches.lift (ix2 n w) p = ix3 n (⟨p.val, p.isLt⟩ : Fin 4096) w := by
  funext c; apply Fin.ext
  fin_cases c <;> rfl

variable (a : PatchArr.Idx → EReal) (b : WordArr.Idx → EReal)

/-- The batched product at (n, p, w) is the similarity of patch p and word w of n. -/
theorem product_apply (n : Fin 64) (p : Fin 4096) (w : Fin 256) :
    val_main_v0 (F := Ideal) a b (ix3 n p w) = sim a b n p w := by
  rw [val_main_v0_apply]
  unfold sim
  refine Finset.sum_congr rfl fun d _ => ?_
  have el : lidx_main_v0 (ix3 n p w) d = ix3 n p d :=
    funext fun c => Fin.ext (by match c with | ⟨0, _⟩ => rfl | ⟨1, _⟩ => rfl | ⟨2, _⟩ => rfl)
  have er : ridx_main_v0 (ix3 n p w) d = ix3 n w d :=
    funext fun c => Fin.ext (by match c with | ⟨0, _⟩ => rfl | ⟨1, _⟩ => rfl | ⟨2, _⟩ => rfl)
  rw [el, er]

/-- The maximum over the words, at (n, p): patch p's best word. -/
theorem wordMax_apply (n : Fin 64) (p : Fin 4096) :
    val_main_v1 (F := Ideal) a b (ix2 n p) = bestWord a b n p := by
  unfold val_main_v1 bestWord
  rw [Host.reduce_eq_fold_single FloatOps.maximumf _ _ reducesTo_S64x4096x256_S64x4096_d2 red_words h_S_]
  have hf : (val_main_v0 (F := Ideal) a b ∘ red_words.lift (ix2 n p)) = fun w : Fin 256 => sim a b n p w :=
    funext fun w => (congrArg (val_main_v0 (F := Ideal) a b) (lift_word n p w)).trans (product_apply a b n p _)
  exact congrArg (fun f => Finset.fold max (Ideal.ofBits .f32 0xFF800000#32) f (Finset.univ : Finset (Fin 256))) hf

/-- The maximum over the patches, at (n, w): word w's best patch. -/
theorem patchMax_apply (n : Fin 64) (w : Fin 256) :
    val_main_v5 (F := Ideal) a b (ix2 n w) = bestPatch a b n w := by
  unfold val_main_v5 bestPatch
  rw [Host.reduce_eq_fold_single FloatOps.maximumf _ _ reducesTo_S64x4096x256_S64x256_d1 red_patches h_S_]
  have hf : (val_main_v0 (F := Ideal) a b ∘ red_patches.lift (ix2 n w)) = fun p : Fin 4096 => sim a b n p w :=
    funext fun p => (congrArg (val_main_v0 (F := Ideal) a b) (lift_patch n w p)).trans (product_apply a b n _ w)
  exact congrArg (fun f => Finset.fold max (Ideal.ofBits .f32 0xFF800000#32) f (Finset.univ : Finset (Fin 4096))) hf

/-- THE REFERENCE'S RESULT at batch element n is the score of n. -/
theorem result_apply (n : Fin 64) : val_main_v11 (F := Ideal) a b (ix1 n) = score a b n := by
  rw [val_main_v11_apply, val_main_v10_apply, val_main_cst_5_apply, val_main_v9_apply, val_main_v4_apply,
    val_main_v8_apply, val_main_v3_apply, val_main_cst_1_apply, val_main_v7_apply, val_main_cst_4_apply,
    val_main_v2_apply, val_main_v6_apply, val_main_cst_0_apply, val_main_cst_3_apply]
  have e2 : ∀ p : Fin 4096, idx_main_v2 (ix1 n) p = ix2 n p := fun p =>
    funext fun c => Fin.ext (by match c with | ⟨0, _⟩ => rfl | ⟨1, _⟩ => rfl)
  have e6 : ∀ w : Fin 256, idx_main_v6 (ix1 n) w = ix2 n w := fun w =>
    funext fun c => Fin.ext (by match c with | ⟨0, _⟩ => rfl | ⟨1, _⟩ => rfl)
  simp only [e2, e6, wordMax_apply, patchMax_apply]
  rfl

end Cert.ReferenceIdeal.RefScore

end
-- ==== Proof.CasePieces.lean ====
/-
  What each control case of the kernel body leaves behind, as values.

  The body has three cases by the position k of the step inside its batch group: the FIRST step (k = 0) resets the two
  running values and then updates them; a MIDDLE step updates them; the LAST step (k = 7) updates them and then writes
  the group's scores. In every case the running maxima end at the update of what they held (the reset value −∞ in the
  first case), the running column likewise (the reset value 0 in the first case), and in the last case the output block
  is the scores computed from the two running values just updated. Each value is one whole-buffer store, so what the
  buffer holds afterwards is that store's value, with every load read as the buffer's whole contents.
-/
import proofs.«155672_j57724360458465_1_alg».proof.Proof.Gen.KernelIdeal.Frame
import Idealize.ShloMosaic.Lib.Pipeline.Value
import Idealize.ShloMosaic.Lib.Tactic

noncomputable section

namespace Cert.KernelIdeal.CasePieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ## The first step of a group: reset, then update -/

/-- The running maxima after a first step: the update of −∞. -/
theorem maxima_first (c : Dev nD) (i : grid0.Coords) (arg2 : Memref sig .tc .vmem S8x512x512 .f32) (harg2 : arg2.IsWhole) (arg3 : Memref sig .tc .vmem S8x256x512 .f32) (harg3 : arg3.IsWhole) (arg4 : Memref sig .tc .vmem S8x1 .f32) (harg4 : arg4.IsWhole) (arg5 : Memref sig .tc .vmem S8x256 .f32) (harg5 : arg5.IsWhole) (arg6 : Memref sig .tc .vmem S8x1 .f32) (harg6 : arg6.IsWhole) (hc0 : cond0_0 i) (hc1 : ¬cond0_1 i)
    (x0 : Vec F S8x512x512 .f32) (x1 : Vec F S8x256x512 .f32) :
    sout0_A_0 c i arg2 harg2 arg3 harg3 arg4 harg4 arg5 harg5 arg6 harg6 hc0 hc1 x0 x1 = k0_pay5 x0 x1 (k0_pay1 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S8x256) hz2, View.readCov_unit_zero (S := S8x256) _ hz2]
  simp only [View.readAt_eq_ld, harg2.read_unread, harg3.read_unread, harg5.read_unread, harg6.read_unread, View.ld_unit_zero (S := S8x512x512) hz3, View.ld_unit_zero (S := S8x256x512) hz3, View.ld_unit_zero (S := S8x256) hz2, View.ld_unit_zero (S := S8x1) hz2]

/-- The running column after a first step: the update of 0. -/
theorem column_first (c : Dev nD) (i : grid0.Coords) (arg2 : Memref sig .tc .vmem S8x512x512 .f32) (harg2 : arg2.IsWhole) (arg3 : Memref sig .tc .vmem S8x256x512 .f32) (harg3 : arg3.IsWhole) (arg4 : Memref sig .tc .vmem S8x1 .f32) (harg4 : arg4.IsWhole) (arg5 : Memref sig .tc .vmem S8x256 .f32) (harg5 : arg5.IsWhole) (arg6 : Memref sig .tc .vmem S8x1 .f32) (harg6 : arg6.IsWhole) (hc0 : cond0_0 i) (hc1 : ¬cond0_1 i)
    (x0 : Vec F S8x512x512 .f32) (x1 : Vec F S8x256x512 .f32) :
    sout0_A_1 c i arg2 harg2 arg3 harg3 arg4 harg4 arg5 harg5 arg6 harg6 hc0 hc1 x0 x1 = k0_pay4 x0 x1 (k0_pay2 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg5.read_unread, harg6.read_unread, View.ld_unit_zero (S := S8x512x512) hz3, View.ld_unit_zero (S := S8x256x512) hz3, View.ld_unit_zero (S := S8x256) hz2, View.ld_unit_zero (S := S8x1) hz2]

/-! ## A middle step: update -/

/-- The running maxima after a middle step: the update of what the step before left. -/
theorem maxima_middle (c : Dev nD) (i : grid0.Coords) (arg2 : Memref sig .tc .vmem S8x512x512 .f32) (harg2 : arg2.IsWhole) (arg3 : Memref sig .tc .vmem S8x256x512 .f32) (harg3 : arg3.IsWhole) (arg4 : Memref sig .tc .vmem S8x1 .f32) (harg4 : arg4.IsWhole) (arg5 : Memref sig .tc .vmem S8x256 .f32) (harg5 : arg5.IsWhole) (arg6 : Memref sig .tc .vmem S8x1 .f32) (harg6 : arg6.IsWhole) (hc0 : ¬cond0_0 i) (hc1 : ¬cond0_1 i)
    (x0 : Vec F S8x512x512 .f32) (x1 : Vec F S8x256x512 .f32) (xs0 : Vec F S8x256 .f32) (xs1 : Vec F S8x1 .f32) :
    sout0_B_0 c i arg2 harg2 arg3 harg3 arg4 harg4 arg5 harg5 arg6 harg6 hc0 hc1 x0 x1 xs0 xs1 = k0_pay5 x0 x1 xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread, View.ld_unit_zero (S := S8x512x512) hz3, View.ld_unit_zero (S := S8x256x512) hz3, View.ld_unit_zero (S := S8x256) hz2, View.ld_unit_zero (S := S8x1) hz2]

/-- The running column after a middle step. -/
theorem column_middle (c : Dev nD) (i : grid0.Coords) (arg2 : Memref sig .tc .vmem S8x512x512 .f32) (harg2 : arg2.IsWhole) (arg3 : Memref sig .tc .vmem S8x256x512 .f32) (harg3 : arg3.IsWhole) (arg4 : Memref sig .tc .vmem S8x1 .f32) (harg4 : arg4.IsWhole) (arg5 : Memref sig .tc .vmem S8x256 .f32) (harg5 : arg5.IsWhole) (arg6 : Memref sig .tc .vmem S8x1 .f32) (harg6 : arg6.IsWhole) (hc0 : ¬cond0_0 i) (hc1 : ¬cond0_1 i)
    (x0 : Vec F S8x512x512 .f32) (x1 : Vec F S8x256x512 .f32) (xs0 : Vec F S8x256 .f32) (xs1 : Vec F S8x1 .f32) :
    sout0_B_1 c i arg2 harg2 arg3 harg3 arg4 harg4 arg5 harg5 arg6 harg6 hc0 hc1 x0 x1 xs0 xs1 = k0_pay4 x0 x1 xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  rw [View.canon_unit_zero hz2]
  simp only [View.readAt_eq_ld, harg2.read_unread, harg3.read_unread, harg5.read_unread, harg6.read_unread, View.ld_unit_zero (S := S8x512x512) hz3, View.ld_unit_zero (S := S8x256x512) hz3, View.ld_unit_zero (S := S8x256) hz2, View.ld_unit_zero (S := S8x1) hz2]

/-! ## The last step of a group: update, then the scores -/

/-- The running maxima after a last step. -/
theorem maxima_last (c : Dev nD) (i : grid0.Coords) (arg2 : Memref sig .tc .vmem S8x512x512 .f32) (harg2 : arg2.IsWhole) (arg3 : Memref sig .tc .vmem S8x256x512 .f32) (harg3 : arg3.IsWhole) (arg4 : Memref sig .tc .vmem S8x1 .f32) (harg4 : arg4.IsWhole) (arg5 : Memref sig .tc .vmem S8x256 .f32) (harg5 : arg5.IsWhole) (arg6 : Memref sig .tc .vmem S8x1 .f32) (harg6 : arg6.IsWhole) (hc0 : ¬cond0_0 i) (hc1 : cond0_1 i)
    (x0 : Vec F S8x512x512 .f32) (x1 : Vec F S8x256x512 .f32) (xs0 : Vec F S8x256 .f32) (xs1 : Vec F S8x1 .f32) :
    sout0_C_0 c i arg2 harg2 arg3 harg3 arg4 harg4 arg5 harg5 arg6 harg6 hc0 hc1 x0 x1 xs0 xs1 = k0_pay5 x0 x1 xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread, View.ld_unit_zero (S := S8x512x512) hz3, View.ld_unit_zero (S := S8x256x512) hz3, View.ld_unit_zero (S := S8x256) hz2, View.ld_unit_zero (S := S8x1) hz2]

/-- The running column after a last step. -/
theorem column_last (c : Dev nD) (i : grid0.Coords) (arg2 : Memref sig .tc .vmem S8x512x512 .f32) (harg2 : arg2.IsWhole) (arg3 : Memref sig .tc .vmem S8x256x512 .f32) (harg3 : arg3.IsWhole) (arg4 : Memref sig .tc .vmem S8x1 .f32) (harg4 : arg4.IsWhole) (arg5 : Memref sig .tc .vmem S8x256 .f32) (harg5 : arg5.IsWhole) (arg6 : Memref sig .tc .vmem S8x1 .f32) (harg6 : arg6.IsWhole) (hc0 : ¬cond0_0 i) (hc1 : cond0_1 i)
    (x0 : Vec F S8x512x512 .f32) (x1 : Vec F S8x256x512 .f32) (xs0 : Vec F S8x256 .f32) (xs1 : Vec F S8x1 .f32) :
    sout0_C_1 c i arg2 harg2 arg3 harg3 arg4 harg4 arg5 harg5 arg6 harg6 hc0 hc1 x0 x1 xs0 xs1 = k0_pay4 x0 x1 xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread, View.ld_unit_zero (S := S8x512x512) hz3, View.ld_unit_zero (S := S8x256x512) hz3, View.ld_unit_zero (S := S8x256) hz2, View.ld_unit_zero (S := S8x1) hz2]

/-- The output block after a last step: the scores from the two running values as this step leaves them. -/
theorem scores_last (c : Dev nD) (i : grid0.Coords) (arg2 : Memref sig .tc .vmem S8x512x512 .f32) (harg2 : arg2.IsWhole) (arg3 : Memref sig .tc .vmem S8x256x512 .f32) (harg3 : arg3.IsWhole) (arg4 : Memref sig .tc .vmem S8x1 .f32) (harg4 : arg4.IsWhole) (arg5 : Memref sig .tc .vmem S8x256 .f32) (harg5 : arg5.IsWhole) (arg6 : Memref sig .tc .vmem S8x1 .f32) (harg6 : arg6.IsWhole) (hc0 : ¬cond0_0 i) (hc1 : cond0_1 i)
    (x0 : Vec F S8x512x512 .f32) (x1 : Vec F S8x256x512 .f32) (xs0 : Vec F S8x256 .f32) (xs1 : Vec F S8x1 .f32) :
    out0_C_2 c i arg2 harg2 arg3 harg3 arg4 harg4 arg5 harg5 arg6 harg6 hc0 hc1 x0 x1 xs0 xs1 = k0_pay6 (k0_pay4 x0 x1 xs1) (k0_pay5 x0 x1 xs0) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  rw [View.canon_unit_zero hz2]
  simp only [View.readAt_eq_ld, harg2.read_unread, harg3.read_unread, harg5.read_unread, harg6.read_unread, View.ld_unit_zero (S := S8x512x512) hz3, View.ld_unit_zero (S := S8x256x512) hz3, View.ld_unit_zero (S := S8x256) hz2, View.ld_unit_zero (S := S8x1) hz2, View.readCov_unit_zero (S := S8x1) _ hz2, View.readCov_unit_zero (S := S8x256) _ hz2]

end Cert.KernelIdeal.CasePieces

end
-- ==== Proof.BodyValue.lean ====
/-
  The kernel body's arithmetic, read at an index, on the extended reals.

  On one grid step the body holds a block of 8 batch elements × 512 patches and the same 8 elements' 256 words. It forms
  the 8 × 512 × 256 similarities (rounding the features to bf16 first, which changes nothing here), then
    · adds to a running [8,1] column the sum over the 512 patches of each patch's maximum over the words,
    · folds into a running [8,256] array each word's maximum over the 512 patches;
  on the last step of a batch group it turns the two running values into the group's scores: the column times 2⁻¹², plus
  the row sums of the running maxima over 256, the whole halved. Each lemma below says what one of the body's stored values
  is at a coordinate, as a function of the values the body loaded.
-/
import proofs.«155672_j57724360458465_1_alg».proof.Proof.Gen.KernelIdeal.Skeleton
import proofs.«155672_j57724360458465_1_alg».proof.Proof.SimSpec
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen
open Idealize.ShloMosaic Idealize.ShloMosaic.ValueIdx

/-! ## Reductions and the column cast at coordinates -/

/-- A maximum over the last axis of an [8,512,256] vector, from −∞, at (r, q): the fold of max over the 256 entries
    (r, q, ·). -/
theorem maxLast_apply (v : FVec Ideal S8x512x256 .f32) (h : S8x512x256.Reduces [2] S8x512) (hφ : FKind.Formats .f32)
    (hacc : (0xFF800000#32 : BitVec 32) = FKind.maximumf.neutral .f32 hφ) (r : Fin 8) (q : Fin 512) :
    multiReduction .maximumf [2] S8x512 v 0xFF800000#32 h hφ hacc (ix2 r q)
      = (Finset.univ : Finset (Fin 256)).fold max (Ideal.ofBits .f32 0xFF800000#32) (fun w => v (ix3 r q w)) := by
  refine (Ideal.multiReduction_maximumf_single v _ h hφ hacc (ix2 r q)).trans ?_
  have hf : (v ∘ h.lift (ix2 r q)) = fun w : Fin 256 => v (ix3 r q w) :=
    funext fun w => congrArg v (by funext c; apply Fin.ext; fin_cases c <;> rfl)
  exact congrArg (fun f => Finset.fold max (Ideal.ofBits .f32 0xFF800000#32) f (Finset.univ : Finset (Fin 256))) hf

/-- A maximum over the middle axis, from −∞, at (r, w): the fold of max over the 512 entries (r, ·, w). -/
theorem maxMiddle_apply (v : FVec Ideal S8x512x256 .f32) (h : S8x512x256.Reduces [1] S8x256) (hφ : FKind.Formats .f32)
    (hacc : (0xFF800000#32 : BitVec 32) = FKind.maximumf.neutral .f32 hφ) (r : Fin 8) (w : Fin 256) :
    multiReduction .maximumf [1] S8x256 v 0xFF800000#32 h hφ hacc (ix2 r w)
      = (Finset.univ : Finset (Fin 512)).fold max (Ideal.ofBits .f32 0xFF800000#32) (fun q => v (ix3 r q w)) := by
  refine (Ideal.multiReduction_maximumf_single v _ h hφ hacc (ix2 r w)).trans ?_
  have hf : (v ∘ h.lift (ix2 r w)) = fun q : Fin 512 => v (ix3 r q w) :=
    funext fun q => congrArg v (by funext c; apply Fin.ext; fin_cases c <;> rfl)
  exact congrArg (fun f => Finset.fold max (Ideal.ofBits .f32 0xFF800000#32) f (Finset.univ : Finset (Fin 512))) hf

/-- A sum over the columns of an [8,n] vector at r: the sum of the n entries (r, ·). -/
theorem sumCols_apply {n : Nat} (v : FVec Ideal ⟨2, ![8, n]⟩ .f32) (h : (⟨2, ![8, n]⟩ : Shape).Reduces [1] ⟨1, ![8]⟩)
    (hφ : FKind.Formats .f32) (hacc : (0x00000000#32 : BitVec 32) = FKind.add.neutral .f32 hφ) (r : Fin 8) :
    multiReduction .add [1] ⟨1, ![8]⟩ v 0x00000000#32 h hφ hacc (ix1 r) = ∑ q : Fin n, v (ix2 r q) := by
  refine (Ideal.multiReduction_add_single v _ h hφ hacc (ix1 r)).trans ?_
  refine Finset.sum_congr rfl fun q _ => congrArg v ?_
  funext c; apply Fin.ext; fin_cases c <;> rfl

/-- An [8] vector viewed as an [8,1] column reads entry r at (r, 0). -/
theorem column_apply (v : FVec Ideal S8 .f32) (h : S8.ShapeCasts S8x1) (r : Fin 8) :
    shapeCast S8x1 v h (ix2 r (0 : Fin 1)) = v (ix1 r) :=
  shapeCast_apply v h (ix2 r (0 : Fin 1)) (ix1 r) (by
    rw [Shape.rowMajor_val_one, Shape.rowMajor_val_two]
    show r.val = r.val * 1 + 0
    omega)

/-! ## The body's stored values -/

variable (x0 : Vec Ideal S8x512x512 .f32) (x1 : Vec Ideal S8x256x512 .f32)

/-- The contraction axis of the block product has one coordinate, of 512 values: the feature index. -/
theorem lhs_batch (i : S8x512x256.Idx) (k : dot_S8x512x512_S8x256x512_S8x512x256_2_2_1_1_0_0.contr.Idx) :
    (dot_S8x512x512_S8x256x512_S8x512x256_2_2_1_1_0_0.lhsIdx i k 0).val = (i 0).val := by
  unfold DotDims.lhsIdx
  rw [dif_pos (show (0 : Fin S8x512x512.rank) ∈ dot_S8x512x512_S8x256x512_S8x512x256_2_2_1_1_0_0.lhsBatch by decide)]
  rfl
theorem lhs_patch (i : S8x512x256.Idx) (k : dot_S8x512x512_S8x256x512_S8x512x256_2_2_1_1_0_0.contr.Idx) :
    (dot_S8x512x512_S8x256x512_S8x512x256_2_2_1_1_0_0.lhsIdx i k 1).val = (i 1).val := by
  unfold DotDims.lhsIdx
  rw [dif_neg (show ¬(1 : Fin S8x512x512.rank) ∈ dot_S8x512x512_S8x256x512_S8x512x256_2_2_1_1_0_0.lhsBatch by decide),
    dif_pos (show (1 : Fin S8x512x512.rank) ∈ dot_S8x512x512_S8x256x512_S8x512x256_2_2_1_1_0_0.lhsNonContracting by decide)]
  rfl
theorem lhs_feature (i : S8x512x256.Idx) (k : dot_S8x512x512_S8x256x512_S8x512x256_2_2_1_1_0_0.contr.Idx) :
    (dot_S8x512x512_S8x256x512_S8x512x256_2_2_1_1_0_0.lhsIdx i k 2).val = (k ⟨0, by decide⟩).val :=
  dot_S8x512x512_S8x256x512_S8x512x256_2_2_1_1_0_0.lhsIdx_val_of_single rfl i k
theorem rhs_batch (i : S8x512x256.Idx) (k : dot_S8x512x512_S8x256x512_S8x512x256_2_2_1_1_0_0.contr.Idx) :
    (dot_S8x512x512_S8x256x512_S8x512x256_2_2_1_1_0_0.rhsIdx i k 0).val = (i 0).val := by
  unfold DotDims.rhsIdx
  rw [dif_pos (show (0 : Fin S8x256x512.rank) ∈ dot_S8x512x512_S8x256x512_S8x512x256_2_2_1_1_0_0.rhsBatch by decide)]
  rfl
theorem rhs_word (i : S8x512x256.Idx) (k : dot_S8x512x512_S8x256x512_S8x512x256_2_2_1_1_0_0.contr.Idx) :
    (dot_S8x512x512_S8x256x512_S8x512x256_2_2_1_1_0_0.rhsIdx i k 1).val = (i 2).val := by
  unfold DotDims.rhsIdx
  rw [dif_neg (show ¬(1 : Fin S8x256x512.rank) ∈ dot_S8x512x512_S8x256x512_S8x512x256_2_2_1_1_0_0.rhsBatch by decide),
    dif_pos (show (1 : Fin S8x256x512.rank) ∈ dot_S8x512x512_S8x256x512_S8x512x256_2_2_1_1_0_0.rhsNonContracting by decide)]
  rfl
theorem rhs_feature (i : S8x512x256.Idx) (k : dot_S8x512x512_S8x256x512_S8x512x256_2_2_1_1_0_0.contr.Idx) :
    (dot_S8x512x512_S8x256x512_S8x512x256_2_2_1_1_0_0.rhsIdx i k 2).val = (k ⟨0, by decide⟩).val :=
  dot_S8x512x512_S8x256x512_S8x512x256_2_2_1_1_0_0.rhsIdx_val_of_single rfl i k

/-- THE BLOCK'S SIMILARITIES: at (r, q, w) the product of the two blocks, batched over r and contracted over the
    features, is the inner product of patch row (r, q, ·) and word row (r, w, ·). -/
theorem sims_apply (r : Fin 8) (q : Fin 512) (w : Fin 256) :
    k0_pay3 (F := Ideal) x0 x1 (ix3 r q w) = ∑ d : Fin 512, x0 (ix3 r q d) * x1 (ix3 r w d) := by
  unfold k0_pay3
  refine (Ideal.matmul_constant_zero_apply dot_S8x512x512_S8x256x512_S8x512x256_2_2_1_1_0_0 none _ _ (ix3 r q w)).trans ?_
  rw [← Equiv.sum_comp (contrEquiv1 dot_S8x512x512_S8x256x512_S8x512x256_2_2_1_1_0_0 512 rfl rfl).symm]
  refine Finset.sum_congr rfl fun d _ => ?_
  have hk := contrEquiv1_symm_val dot_S8x512x512_S8x256x512_S8x512x256_2_2_1_1_0_0 512 rfl rfl d
  have el : dot_S8x512x512_S8x256x512_S8x512x256_2_2_1_1_0_0.lhsIdx (ix3 r q w)
      ((contrEquiv1 dot_S8x512x512_S8x256x512_S8x512x256_2_2_1_1_0_0 512 rfl rfl).symm d) = ix3 r q d :=
    funext fun c => Fin.ext (by
      match c with
      | ⟨0, _⟩ => exact lhs_batch _ _
      | ⟨1, _⟩ => exact lhs_patch _ _
      | ⟨2, _⟩ => exact (lhs_feature _ _).trans hk)
  have er : dot_S8x512x512_S8x256x512_S8x512x256_2_2_1_1_0_0.rhsIdx (ix3 r q w)
      ((contrEquiv1 dot_S8x512x512_S8x256x512_S8x512x256_2_2_1_1_0_0 512 rfl rfl).symm d) = ix3 r w d :=
    funext fun c => Fin.ext (by
      match c with
      | ⟨0, _⟩ => exact rhs_batch _ _
      | ⟨1, _⟩ => exact rhs_word _ _
      | ⟨2, _⟩ => exact (rhs_feature _ _).trans hk)
  rw [el, er]
  rfl

/-- THE RUNNING COLUMN after a step: what it held, plus the block's sum over the patches of each patch's maximum over
    the words. -/
theorem column_step (s1 : Vec Ideal S8x1 .f32) (r : Fin 8) :
    k0_pay4 (F := Ideal) x0 x1 s1 (ix2 r (0 : Fin 1))
      = s1 (ix2 r (0 : Fin 1)) + ∑ q : Fin 512, (Finset.univ : Finset (Fin 256)).fold max (Ideal.ofBits .f32 0xFF800000#32)
          (fun w => k0_pay3 (F := Ideal) x0 x1 (ix3 r q w)) := by
  unfold k0_pay4
  dsimp only
  rw [shapeCast_self]
  refine congrArg (s1 (ix2 r (0 : Fin 1)) + ·) ?_
  refine (column_apply _ _ r).trans ?_
  refine (sumCols_apply (n := 512) _ _ _ _ r).trans ?_
  exact Finset.sum_congr rfl fun q _ => maxLast_apply _ _ _ _ r q

/-- THE RUNNING MAXIMA after a step: at (r, w), what they held there against the block's maximum over the patches. -/
theorem maxima_step (s0 : Vec Ideal S8x256 .f32) (r : Fin 8) (w : Fin 256) :
    k0_pay5 (F := Ideal) x0 x1 s0 (ix2 r w)
      = max (s0 (ix2 r w)) ((Finset.univ : Finset (Fin 512)).fold max (Ideal.ofBits .f32 0xFF800000#32)
          (fun q => k0_pay3 (F := Ideal) x0 x1 (ix3 r q w))) := by
  unfold k0_pay5
  dsimp only
  rw [shapeCast_self]
  exact congrArg (max (s0 (ix2 r w))) (maxMiddle_apply _ _ _ _ r w)

/-- The reset values: −∞ everywhere in the maxima, 0 in the column. -/
theorem reset_maxima (r : Fin 8) (w : Fin 256) :
    (k0_pay1 (F := Ideal)) (ix2 r w) = Ideal.ofBits .f32 0xFF800000#32 := by
  unfold k0_pay1
  rw [shapeCast_self]
  rfl
theorem reset_column (r : Fin 8) :
    (k0_pay2 (F := Ideal)) (ix2 r (0 : Fin 1)) = Ideal.ofBits .f32 0x00000000#32 := by
  unfold k0_pay2
  rw [shapeCast_self]
  rfl

/-- THE GROUP'S SCORES from the two running values: half of (the column times 2⁻¹², plus the maxima's row sum over 256). -/
theorem scores_apply (s1 : Vec Ideal S8x1 .f32) (s0 : Vec Ideal S8x256 .f32) (r : Fin 8) :
    k0_pay6 (F := Ideal) s1 s0 (ix2 r (0 : Fin 1))
      = Ideal.ofBits .f32 0x3F000000#32
        * (s1 (ix2 r (0 : Fin 1)) * Ideal.ofBits .f32 0x39800000#32
          + Ideal.div (∑ w : Fin 256, s0 (ix2 r w)) (Ideal.ofBits .f32 0x43800000#32)) := by
  unfold k0_pay6
  dsimp only
  refine congrArg (Ideal.ofBits .f32 0x3F000000#32 * ·) ?_
  refine congrArg (s1 (ix2 r (0 : Fin 1)) * Ideal.ofBits .f32 0x39800000#32 + ·) ?_
  refine congrArg (fun z => Ideal.div z (Ideal.ofBits .f32 0x43800000#32)) ?_
  refine (column_apply _ _ r).trans ?_
  exact sumCols_apply (n := 256) _ _ _ _ r

end Cert.KernelIdeal.BodyValue

end
-- ==== Proof.Running.lean ====
/-
  The two running values, step by step.

  The grid's 64 steps go group by group: step t works on batch group t / 8 and patch tile t % 8. After step t the running
  maxima hold, at (r, w), the maximum of word w's similarities over the patches of tiles 0 … t % 8 of batch element
  8 (t / 8) + r, folded tile by tile from −∞; the running column holds at r the sum of the best-word values of those
  patches, added tile by tile from 0. By induction on the step: a group's first step starts both afresh, every other step
  extends what the step before left by one tile, and stays in the same group.
-/
import proofs.«155672_j57724360458465_1_alg».proof.Proof.Gen.KernelIdeal.Frame
import proofs.«155672_j57724360458465_1_alg».proof.Proof.CasePieces
import proofs.«155672_j57724360458465_1_alg».proof.Proof.BodyValue
import proofs.«155672_j57724360458465_1_alg».proof.Proof.SimSpec

noncomputable section

namespace Cert.KernelIdeal.Running

open Cert.KernelIdeal Cert.KernelIdeal.Gen Cert.PatchWord
open Idealize.ShloMosaic Idealize.ShloMosaic.TcCoe Idealize.SL.Sem Idealize.ShloMosaic.ValueIdx

variable (m : (ℓ : Loc nD τ sig) → Buf (Elt Ideal) ℓ)

/-- The two argument arrays as the kernel finds them, and the blocks of them a step works on. -/
abbrev patchArr (c : Dev nD) : Vec Ideal S64x4096x512 .f32 := V m c main_arg0
abbrev wordArr (c : Dev nD) : Vec Ideal S64x256x512 .f32 := V m c main_arg1
abbrev patchBlk (c : Dev nD) (t : Fin cfg0.N) : Vec Ideal S8x512x512 .f32 := iblk m c 0 t
abbrev wordBlk (c : Dev nD) (t : Fin cfg0.N) : Vec Ideal S8x256x512 .f32 := iblk m c 1 t

/-- Step t's patch block is block (t / 8, t % 8, 0) of the patch array, its word block is block (t / 8, 0, 0) of the word array. -/
theorem patch_index : ∀ t : Fin cfg0.N, win0_0.index t (0 : Fin 3) = t.val / 8 ∧ win0_0.index t (1 : Fin 3) = t.val % 8 ∧ win0_0.index t (2 : Fin 3) = 0 :=
  (by decide +kernel : ∀ t : Fin grid0.N, win0_0.index t (0 : Fin 3) = t.val / 8 ∧ win0_0.index t (1 : Fin 3) = t.val % 8 ∧ win0_0.index t (2 : Fin 3) = 0)
theorem word_index : ∀ t : Fin cfg0.N, win0_1.index t (0 : Fin 3) = t.val / 8 ∧ win0_1.index t (1 : Fin 3) = 0 ∧ win0_1.index t (2 : Fin 3) = 0 :=
  (by decide +kernel : ∀ t : Fin grid0.N, win0_1.index t (0 : Fin 3) = t.val / 8 ∧ win0_1.index t (1 : Fin 3) = 0 ∧ win0_1.index t (2 : Fin 3) = 0)

/-- So entry (r, q, d) of the patch block is the feature d of patch q of tile t % 8 of batch element r of group t / 8; -/
theorem patchBlk_apply (c : Dev nD) (t : Fin cfg0.N) (r : Fin 8) (q : Fin 512) (d : Fin 512) :
    patchBlk m c t (ix3 r q d) = patchArr m c (ix3 (rowOf (t.val / 8) r) (posOf (t.val % 8) q) d) := by
  have hN : t.val < 64 := lt_of_lt_of_eq t.isLt (show cfg0.N = 64 from N_0)
  obtain ⟨i0, i1, i2⟩ := patch_index t
  show iblk m c 0 t (ix3 r q d) = _
  unfold iblk
  rw [View.read_apply]
  show V m c main_arg0 _ = V m c main_arg0 _
  congr 1
  funext a
  apply Fin.ext
  match a with
  | ⟨0, _⟩ => show win0_0.index t 0 * 8 + 1 * r.val = (8 * (t.val / 8) + r.val) % 64; rw [i0]; omega
  | ⟨1, _⟩ => show win0_0.index t 1 * 512 + 1 * q.val = (512 * (t.val % 8) + q.val) % 4096; rw [i1]; omega
  | ⟨2, _⟩ => show win0_0.index t 2 * 512 + 1 * d.val = d.val; rw [i2]; omega

/-- and entry (r, w, d) of the word block the feature d of word w of that batch element. -/
theorem wordBlk_apply (c : Dev nD) (t : Fin cfg0.N) (r : Fin 8) (w : Fin 256) (d : Fin 512) :
    wordBlk m c t (ix3 r w d) = wordArr m c (ix3 (rowOf (t.val / 8) r) w d) := by
  have hN : t.val < 64 := lt_of_lt_of_eq t.isLt (show cfg0.N = 64 from N_0)
  obtain ⟨i0, i1, i2⟩ := word_index t
  show iblk m c 1 t (ix3 r w d) = _
  unfold iblk
  rw [View.read_apply]
  show V m c main_arg1 _ = V m c main_arg1 _
  congr 1
  funext a
  apply Fin.ext
  match a with
  | ⟨0, _⟩ => show win0_1.index t 0 * 8 + 1 * r.val = (8 * (t.val / 8) + r.val) % 64; rw [i0]; omega
  | ⟨1, _⟩ => show win0_1.index t 1 * 256 + 1 * w.val = w.val; rw [i1]; omega
  | ⟨2, _⟩ => show win0_1.index t 2 * 512 + 1 * d.val = d.val; rw [i2]; omega

/-- The block's similarities are the arrays' similarities of tile t % 8 of group t / 8. -/
theorem block_sim (c : Dev nD) (t : Fin cfg0.N) (r : Fin 8) (q : Fin 512) (w : Fin 256) :
    k0_pay3 (F := Ideal) (patchBlk m c t) (wordBlk m c t) (ix3 r q w)
      = sim (patchArr m c) (wordArr m c) (rowOf (t.val / 8) r) (posOf (t.val % 8) q) w := by
  refine (BodyValue.sims_apply (patchBlk m c t) (wordBlk m c t) r q w).trans ?_
  unfold sim
  exact Finset.sum_congr rfl fun d _ => by rw [patchBlk_apply, wordBlk_apply]

/-- One step's maximum over the block's patches is the tile's maximum; -/
theorem block_tileMax (c : Dev nD) (t : Fin cfg0.N) (r : Fin 8) (w : Fin 256) :
    (Finset.univ : Finset (Fin 512)).fold max (Ideal.ofBits .f32 0xFF800000#32)
        (fun q => k0_pay3 (F := Ideal) (patchBlk m c t) (wordBlk m c t) (ix3 r q w))
      = tileMax (patchArr m c) (wordArr m c) (rowOf (t.val / 8) r) w (t.val % 8) := by
  unfold tileMax
  exact congrArg (fun f => Finset.fold max (Ideal.ofBits .f32 0xFF800000#32) f (Finset.univ : Finset (Fin 512)))
    (funext fun q => block_sim m c t r q w)

/-- one step's sum over the block's patches of their best-word values is the tile's sum. -/
theorem block_tileSum (c : Dev nD) (t : Fin cfg0.N) (r : Fin 8) :
    ∑ q : Fin 512, (Finset.univ : Finset (Fin 256)).fold max (Ideal.ofBits .f32 0xFF800000#32)
        (fun w => k0_pay3 (F := Ideal) (patchBlk m c t) (wordBlk m c t) (ix3 r q w))
      = tileSum (patchArr m c) (wordArr m c) (rowOf (t.val / 8) r) (t.val % 8) := by
  unfold tileSum bestWord
  exact Finset.sum_congr rfl fun q _ =>
    congrArg (fun f => Finset.fold max (Ideal.ofBits .f32 0xFF800000#32) f (Finset.univ : Finset (Fin 256)))
      (funext fun w => block_sim m c t r q w)

/-! ## What a step leaves, from what the step before left -/

/-- A group's first step leaves the update of the reset values. -/
theorem first_step (c : Dev nD) (t : Fin cfg0.N) (h0 : t.val % 8 = 0) :
    (outsAt0 m c t.val t.isLt).2.1 = k0_pay5 (patchBlk m c t) (wordBlk m c t) (k0_pay1 (F := Ideal))
    ∧ (outsAt0 m c t.val t.isLt).2.2 = k0_pay4 (patchBlk m c t) (wordBlk m c t) (k0_pay2 (F := Ideal)) := by
  have h1 : ¬t.val % 8 = 7 := by omega
  rw [outsAt0_A m c t h0 h1]
  dsimp only
  exact ⟨CasePieces.maxima_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    CasePieces.column_first (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

/-- Every other step leaves the update of what the step before left. -/
theorem later_step (c : Dev nD) (t : Fin cfg0.N) (h0 : ¬t.val % 8 = 0) :
    (outsAt0 m c t.val t.isLt).2.1 = k0_pay5 (patchBlk m c t) (wordBlk m c t)
        (outsAt0 m c (t.val - 1) (Nat.lt_of_le_of_lt (Nat.sub_le _ _) t.isLt)).2.1
    ∧ (outsAt0 m c t.val t.isLt).2.2 = k0_pay4 (patchBlk m c t) (wordBlk m c t)
        (outsAt0 m c (t.val - 1) (Nat.lt_of_le_of_lt (Nat.sub_le _ _) t.isLt)).2.2 := by
  by_cases h1 : t.val % 8 = 7
  · rw [outsAt0_C m c t h0 h1]
    dsimp only
    exact ⟨CasePieces.maxima_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.1 (outsAt0 m c (t.val - 1) (Nat.lt_of_le_of_lt (Nat.sub_le _ _) t.isLt)).2.2,
      CasePieces.column_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
        (outsAt0 m c (t.val - 1) (Nat.lt_of_le_of_lt (Nat.sub_le _ _) t.isLt)).2.1 (outsAt0 m c (t.val - 1) (Nat.lt_of_le_of_lt (Nat.sub_le _ _) t.isLt)).2.2⟩
  · rw [outsAt0_B m c t h0 h1]
    dsimp only
    exact ⟨CasePieces.maxima_middle (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2.1 (outsAt0 m c (t.val - 1) (Nat.lt_of_le_of_lt (Nat.sub_le _ _) t.isLt)).2.2,
      CasePieces.column_middle (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t)
        (outsAt0 m c (t.val - 1) (Nat.lt_of_le_of_lt (Nat.sub_le _ _) t.isLt)).2.1 (outsAt0 m c (t.val - 1) (Nat.lt_of_le_of_lt (Nat.sub_le _ _) t.isLt)).2.2⟩

/-- A group's last step writes the scores from the two running values as it leaves them. -/
theorem last_step (c : Dev nD) (t : Fin cfg0.N) (h1 : t.val % 8 = 7) :
    (outsAt0 m c t.val t.isLt).1 = k0_pay6 (outsAt0 m c t.val t.isLt).2.2 (outsAt0 m c t.val t.isLt).2.1 := by
  have h0 : ¬t.val % 8 = 0 := by omega
  rw [outsAt0_C m c t h0 h1]
  dsimp only
  rw [CasePieces.maxima_last (F := Ideal), CasePieces.column_last (F := Ideal)]
  exact CasePieces.scores_last (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2.1 (outsAt0 m c (t.val - 1) (Nat.lt_of_le_of_lt (Nat.sub_le _ _) t.isLt)).2.2

/-! ## The running values in closed form -/

/-- THE INVARIANT. After step n the running maxima are the tile-wise running maxima, and the running column the tile-wise
    running sums, of group n / 8 through tile n % 8. -/
theorem running (c : Dev nD) : ∀ (n : ℕ) (h : n < cfg0.N),
    (∀ (r : Fin 8) (w : Fin 256), (outsAt0 m c n h).2.1 (ix2 r w)
        = runMax (tileMax (patchArr m c) (wordArr m c) (rowOf (n / 8) r) w) (n % 8))
    ∧ (∀ r : Fin 8, (outsAt0 m c n h).2.2 (ix2 r (0 : Fin 1))
        = runSum (tileSum (patchArr m c) (wordArr m c) (rowOf (n / 8) r)) (n % 8)) := by
  intro n
  induction n with
  | zero =>
    intro h
    obtain ⟨e0, e1⟩ := first_step m c ⟨0, h⟩ rfl
    refine ⟨fun r w => ?_, fun r => ?_⟩
    · rw [e0, BodyValue.maxima_step, BodyValue.reset_maxima, block_tileMax]
      rfl
    · rw [e1, BodyValue.column_step, BodyValue.reset_column, block_tileSum]
      rfl
  | succ n ih =>
    intro h
    by_cases h0 : (n + 1) % 8 = 0
    · obtain ⟨e0, e1⟩ := first_step m c ⟨n + 1, h⟩ h0
      refine ⟨fun r w => ?_, fun r => ?_⟩
      · rw [e0, BodyValue.maxima_step, BodyValue.reset_maxima, block_tileMax]
        show max _ (tileMax _ _ _ w ((n + 1) % 8)) = runMax _ ((n + 1) % 8)
        rw [h0]
        rfl
      · rw [e1, BodyValue.column_step, BodyValue.reset_column, block_tileSum]
        show _ + tileSum _ _ _ ((n + 1) % 8) = runSum _ ((n + 1) % 8)
        rw [h0]
        rfl
    · obtain ⟨e0, e1⟩ := later_step m c ⟨n + 1, h⟩ h0
      obtain ⟨ih0, ih1⟩ := ih (Nat.lt_of_succ_lt h)
      have hg : (n + 1) / 8 = n / 8 := by omega
      have hk : (n + 1) % 8 = n % 8 + 1 := by omega
      refine ⟨fun r w => ?_, fun r => ?_⟩
      · rw [e0, BodyValue.maxima_step, block_tileMax]
        show max ((outsAt0 m c n _).2.1 (ix2 r w)) (tileMax _ _ (rowOf ((n + 1) / 8) r) w ((n + 1) % 8)) = runMax _ ((n + 1) % 8)
        rw [ih0 r w, hg, hk]
        rfl
      · rw [e1, BodyValue.column_step, block_tileSum]
        show (outsAt0 m c n _).2.2 (ix2 r (0 : Fin 1)) + tileSum _ _ (rowOf ((n + 1) / 8) r) ((n + 1) % 8) = runSum _ ((n + 1) % 8)
        rw [ih1 r, hg, hk]
        rfl

/-- THE SCORES A GROUP'S LAST STEP WRITES: at r, the score of batch element r of the group. -/
theorem scores_written (c : Dev nD) (t : Fin cfg0.N) (h1 : t.val % 8 = 7) (r : Fin 8) :
    (outsAt0 m c t.val t.isLt).1 (ix2 r (0 : Fin 1)) = score (patchArr m c) (wordArr m c) (rowOf (t.val / 8) r) := by
  obtain ⟨i0, i1⟩ := running m c t.val t.isLt
  rw [last_step m c t h1, BodyValue.scores_apply, i1 r, Finset.sum_congr rfl fun w _ => i0 r w, h1]
  exact tiled_score (patchArr m c) (wordArr m c) (rowOf (t.val / 8) r)

end Cert.KernelIdeal.Running

end
-- ==== Proof.KernelScore.lean ====
/-
  The kernel's result array holds the scores.

  The output window is an [8,1] block of the [64,1] result, one block per batch group, written back once, after the group's
  last step, when it holds the group's scores. The eight write-backs tile the result, so after the run entry (n, 0) is the
  score of batch element n; the reshape that follows the kernel reads it off as entry n of the [64] vector returned.
-/
import proofs.«155672_j57724360458465_1_alg».proof.Proof.Running

noncomputable section

namespace Cert.KernelIdeal.KernelScore

open Cert.KernelIdeal Cert.KernelIdeal.Gen Cert.KernelIdeal.Running Cert.PatchWord
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The scores as the [64,1] column the kernel writes, and as the [64] vector the program returns. -/
abbrev scoreCol (c : Dev nD) : Vec Ideal S64x1 .f32 :=
  fun j => score (patchArr m c) (wordArr m c) ⟨(j 0).val, (j 0).isLt⟩
abbrev scoreVec (c : Dev nD) : Vec Ideal S64 .f32 :=
  fun j => score (patchArr m c) (wordArr m c) ⟨(j 0).val, (j 0).isLt⟩

/-- Step t's output block is block (t / 8, 0) of the result. -/
theorem out_index : ∀ t : Fin cfg0.N, win0_2.index t (0 : Fin 2) = t.val / 8 ∧ win0_2.index t (1 : Fin 2) = 0 :=
  (by decide +kernel : ∀ t : Fin grid0.N, win0_2.index t (0 : Fin 2) = t.val / 8 ∧ win0_2.index t (1 : Fin 2) = 0)

/-- WHAT A WRITE-BACK WRITES is its block of the score column. -/
theorem flushed_eq (c : Dev nD) (t : Fin cfg0.N) (hf : (cfg0.win 2).flush t = true) :
    (dats m 0 c).flushed 2 t = ((cfg0.win 2).blk t).view.read (Elt Ideal) (scoreCol m c) := by
  have h7 : t.val % 8 = 7 := (flush0_2 t).mp hf
  have hN : t.val < 64 := lt_of_lt_of_eq t.isLt (show cfg0.N = 64 from N_0)
  obtain ⟨i0, i1⟩ := out_index t
  show (cfg0.win 2).cut (grid0.coords t) ((dats m 0 c).after 2 t) = _
  rw [after0_2]
  funext y
  obtain ⟨r, rfl⟩ : ∃ r : Fin 8, y = ix2 r (0 : Fin 1) :=
    ⟨⟨(y 0).val, (y 0).isLt⟩, funext fun a => Fin.ext (by
      match a with
      | ⟨0, _⟩ => rfl
      | ⟨1, _⟩ => show (y 1).val = 0; have h : (y 1).val < 1 := (y 1).isLt; omega)⟩
  show (outsAt0 m c t.val t.isLt).1 (ix2 r (0 : Fin 1)) = scoreCol m c (((cfg0.win 2).blk t).view.emb (ix2 r (0 : Fin 1)))
  rw [scores_written m c t h7 r]
  show score _ _ _ = score _ _ _
  congr 1
  apply Fin.ext
  show (8 * (t.val / 8) + r.val) % 64 = win0_2.index t (0 : Fin 2) * 8 + 1 * r.val
  rw [i0]; omega

/-- An index of the result is in step t's block iff each coordinate is in the block's range on its axis. -/
theorem mem_blk (t : Fin cfg0.N) (i : S64x1.Idx) :
    i ∈ ((cfg0.win 2).blk t).view.set ↔ ∀ a : Fin 2, win0_2.index t a * S8x1.size a ≤ (i a).val ∧ (i a).val < win0_2.index t a * S8x1.size a + S8x1.size a := by
  show i ∈ ((View.whole main_v0).slice (win0_2.rect t)).set ↔ _
  rw [View.set_slice_whole, Rect.mem_set_unit]
  exact Iff.rfl

/-- THE RESULT ARRAY after the run is the score column: entry (n, 0) is written by the last step of group n / 8. -/
theorem final_col (c : Dev nD) : (dats m 0 c).arrAt 2 cfg0.N = scoreCol m c :=
  (dats m 0 c).arrAt_eq_of_cover 2 (scoreCol m c) (flushed_eq m c) fun i => by
    have hi0 : (i 0).val < 64 := (i 0).isLt
    have hi1 : (i 1).val < 1 := (i 1).isLt
    have hlt : 8 * ((i 0).val / 8) + 7 < cfg0.N := by rw [show cfg0.N = 64 from N_0]; omega
    refine ⟨⟨8 * ((i 0).val / 8) + 7, hlt⟩, (flush0_2 _).mpr (by show (8 * ((i 0).val / 8) + 7) % 8 = 7; omega), ?_⟩
    rw [mem_blk]
    obtain ⟨e0, e1⟩ := out_index ⟨8 * ((i 0).val / 8) + 7, hlt⟩
    intro a
    match a with
    | ⟨0, _⟩ =>
      show win0_2.index ⟨8 * ((i 0).val / 8) + 7, hlt⟩ (0 : Fin 2) * 8 ≤ (i 0).val ∧ (i 0).val < win0_2.index ⟨8 * ((i 0).val / 8) + 7, hlt⟩ (0 : Fin 2) * 8 + 8
      rw [e0]; show (8 * ((i 0).val / 8) + 7) / 8 * 8 ≤ (i 0).val ∧ (i 0).val < (8 * ((i 0).val / 8) + 7) / 8 * 8 + 8
      omega
    | ⟨1, _⟩ =>
      show win0_2.index ⟨8 * ((i 0).val / 8) + 7, hlt⟩ (1 : Fin 2) * 1 ≤ (i 1).val ∧ (i 1).val < win0_2.index ⟨8 * ((i 0).val / 8) + 7, hlt⟩ (1 : Fin 2) * 1 + 1
      rw [e1]; omega

/-- The column viewed as a vector reads entry (n, 0) at n. -/
theorem vector_of_column (x : Vec Ideal S64x1 .f32) (h : S64x1.ShapeCasts S64) (n : Fin 64) :
    shapeCast S64 x h (ix1 n) = x (ix2 n (0 : Fin 1)) :=
  shapeCast_apply x h (ix1 n) (ix2 n (0 : Fin 1)) (by
    rw [Shape.rowMajor_val_one, Shape.rowMajor_val_two]
    show n.val * 1 + 0 = n.val
    omega)

/-- THE RETURNED VECTOR: the reshape after the kernel leaves the scores. -/
theorem tail_eq (c : Dev nD) :
    Pipeline.afterTail₀ cfgs (dats m) 0 (V0 m) [hostOps1] c main_v1 = scoreVec m c := by
  unfold Pipeline.afterTail₀
  show StableHlo.after hostOps1 _ (Proc.devRef .tc main_v1) = _
  after_results
  funext j
  obtain ⟨n, rfl⟩ : ∃ n : Fin 64, j = ix1 n := ⟨⟨(j 0).val, (j 0).isLt⟩, funext fun a => Fin.ext (by match a with | ⟨0, _⟩ => rfl)⟩
  refine (vector_of_column _ _ n).trans ?_
  rw [show Pipeline.withArrays spec0 c (V0 m c) (fun w => (dats m 0 c).arrAt w cfg0.N) (Proc.devRef .tc main_v0)
      = (dats m 0 c).arrAt 2 cfg0.N from Pipeline.withArrays_arr spec0 launch0.win.arr_inj c _ _ 2, final_col]

/-- THE RUN, READ: every execution of the kernel program ends with the returned vector at the scores of the argument
    arrays, and the argument arrays as they were. -/
theorem run : θ_run defs (onTc (τ := τ) (main (F := Ideal))) ⟨m, fun _ => 0, ρ⟩ fun r => ∀ c : Dev nD,
      r.2.mem ((c.tc : Thread nD τ).loc main_v1) = scoreVec m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v1 (by decide)).trans (tail_eq m c),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.KernelIdeal.KernelScore

end
-- ==== Proof.lean ====
/-
  The kernel computes the reference's score, over the extended reals.

  For each of 64 batch elements both programs take 4096 patch rows and 256 word rows of 512 features, form the
  similarity of every patch with every word (an inner product over the features), and return half the sum of two means:
  each patch's best similarity averaged over the patches, and each word's best similarity averaged over the words.

  The reference does this in one sweep: one batched product, two maxima from −∞, two sums from 0 divided by 4096 and by
  256 (Proof/RefScore.lean). The kernel walks the patches of a group of 8 batch elements in 8 tiles of 512: on each tile
  it forms the tile's similarities (rounding the features to bf16 first, which is the identity on the extended reals),
  adds the tile's best-word sum to a running column and folds the tile's best-patch maxima into a running array, both
  reset on the group's first tile; on the last tile it multiplies the column by 2⁻¹², divides the running array's row
  sums by 256, adds and halves (Proof/BodyValue.lean, Proof/CasePieces.lean, Proof/Running.lean, Proof/KernelScore.lean).

  The two agree on every extended real, with no use of finiteness: sums and maxima re-associate freely over the tiles,
  −∞ is the maximum's neutral element and 0 the sum's, and dividing by 4096 is multiplying by 2⁻¹² — that word's exponent
  field is 127 − 12 and its fraction field 0 — at the infinities too (Proof/SimSpec.lean, tiled_score).

  The three frames: the two kernel programs run to the end with their arguments unchanged by the pipeline's frame
  theorem over the kernel body's three control cases; the reference by its run, a straight line of host operations.
  The idealization rewrote nothing, so nothing is owed for it.
-/
import proofs.«155672_j57724360458465_1_alg».proof.Defs
import proofs.«155672_j57724360458465_1_alg».proof.Proof.Gen.Kernel
import proofs.«155672_j57724360458465_1_alg».proof.Proof.Gen.Kernel.Skeleton
import proofs.«155672_j57724360458465_1_alg».proof.Proof.Gen.Kernel.Launch
import proofs.«155672_j57724360458465_1_alg».proof.Proof.Gen.Kernel.Points
import proofs.«155672_j57724360458465_1_alg».proof.Proof.Gen.Kernel.Frame
import proofs.«155672_j57724360458465_1_alg».proof.Proof.Gen.KernelIdeal
import proofs.«155672_j57724360458465_1_alg».proof.Proof.Gen.KernelIdeal.Skeleton
import proofs.«155672_j57724360458465_1_alg».proof.Proof.Gen.KernelIdeal.Launch
import proofs.«155672_j57724360458465_1_alg».proof.Proof.Gen.KernelIdeal.Points
import proofs.«155672_j57724360458465_1_alg».proof.Proof.Gen.KernelIdeal.Frame
import proofs.«155672_j57724360458465_1_alg».proof.Proof.Gen.ReferenceIdeal
import proofs.«155672_j57724360458465_1_alg».proof.Proof.Gen.Pre_finite_inputs
import proofs.«155672_j57724360458465_1_alg».proof.Proof.Gen.ReferenceIdeal.Run
import proofs.«155672_j57724360458465_1_alg».proof.Proof.Gen.ReferenceIdeal.Read
import proofs.«155672_j57724360458465_1_alg».proof.Proof.SimSpec
import proofs.«155672_j57724360458465_1_alg».proof.Proof.RefScore
import proofs.«155672_j57724360458465_1_alg».proof.Proof.KernelScore
import Idealize.ShloMosaic.Adequacy
import Idealize.ShloMosaic.Init

noncomputable section

namespace Cert.Proof

open Idealize.ShloMosaic Idealize.SL.Sem Idealize.ShloMosaic.ValueIdx

/-- The kernel as printed runs to the end, its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel program ends with the returned vector at the scores (its run, read) and the
    reference with its last stage, which at every batch element is the score of the same arrays. -/
theorem algebraic : Cert.algebraic_KernelIdeal_ReferenceIdeal := by
  intro m ρ m' ρ' _ hagree
  refine ⟨fun c => Cert.KernelIdeal.KernelScore.scoreVec m c, Cert.KernelIdeal.KernelScore.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v11_eq, (hagree c).1, (hagree c).2]
  funext j
  obtain ⟨n, rfl⟩ : ∃ n : Fin 64, j = ix1 n :=
    ⟨⟨(j 0).val, (j 0).isLt⟩, funext fun a => Fin.ext (by match a with | ⟨0, _⟩ => rfl)⟩
  exact Cert.ReferenceIdeal.RefScore.result_apply _ _ n

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
